-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg3 : IVec S500000 32) (main_v33 : IVec S_ 1) : IVec S_ 1 :=
  let main_c_12 : IVec S_ 32 := constantI S_ 32 4294917296#32
  let main_v34 : IVec S500000 32 := broadcastInDim S500000 ![] bcast_S_S500000 main_c_12
  let main_v35 : IVec S500000 1 := cmpi .sge main_arg3 main_v34
  let main_c_13 : IVec S_ 32 := constantI S_ 32 50000#32
  let main_v36 : IVec S500000 32 := broadcastInDim S500000 ![] bcast_S_S500000 main_c_13
  let main_v37 : IVec S500000 1 := cmpi .slt main_arg3 main_v36
  let main_v38 : IVec S500000 1 := andi main_v35 main_v37
  let main_c_14 : IVec S_ 1 := constantI S_ 1 1#1
  let main_v39 : IVec S_ 1 := (fun x v => Host.reduce IntOp.andi x v reducesTo_S500000_S_d0 h_S_) main_v38 main_c_14
  let main_v40 : IVec S_ 1 := andi main_v33 main_v39
  main_v40

def fn_part1 {F : FTy → Type} [FloatOps F] (main_arg3 : IVec S500000 32) (main_arg5 : FVec F S128 .f32) (main_arg6 : FVec F S384x128 .f32) (main_arg7 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_v33

def fn {F : FTy → Type} [FloatOps F] (main_arg0 : FVec F S500000x128 .f32) (main_arg1 : FVec F S500000x128 .f32) (main_arg2 : FVec F S50000x128 .f32) (main_arg3 : IVec S500000 32) (main_arg4 : FVec F S384x128 .f32) (main_arg5 : FVec F S128 .f32) (main_arg6 : FVec F S384x128 .f32) (main_arg7 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg3 main_arg5 main_arg6 main_arg7 main_v13 main_v16
-- ==== Kernel.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S384x256 : Shape := ⟨2, ![384, 256]⟩
abbrev S256 : Shape := ⟨1, ![256]⟩
abbrev S1x256 : Shape := ⟨2, ![1, 256]⟩
abbrev S128x256 : Shape := ⟨2, ![128, 256]⟩
abbrev S2000x128 : Shape := ⟨2, ![2000, 128]⟩
abbrev S2000x256 : Shape := ⟨2, ![2000, 256]⟩

abbrev nBuf : Space → Nat
  | .hbm => 42
  | .vmem => 14
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S50000x128, .f32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S1, .i32⟩
  | .hbm, ⟨17, _⟩ => ⟨S_, .i32⟩
  | .hbm, ⟨18, _⟩ => ⟨S500000x1, .i32⟩
  | .hbm, ⟨19, _⟩ => ⟨S500000x1, .i1⟩
  | .hbm, ⟨20, _⟩ => ⟨S1x1, .i32⟩
  | .hbm, ⟨21, _⟩ => ⟨S500000x1, .i32⟩
  | .hbm, ⟨22, _⟩ => ⟨S500000x1, .i1⟩
  | .hbm, ⟨23, _⟩ => ⟨S500000x1, .i1⟩
  | .hbm, ⟨24, _⟩ => ⟨S_, .i1⟩
  | .hbm, ⟨25, _⟩ => ⟨S500000, .i1⟩
  | .hbm, ⟨26, _⟩ => ⟨S500000x128, .f32⟩
  | .hbm, ⟨27, _⟩ => ⟨S500000x128, .i1⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S384x256, .f32⟩
  | .hbm, ⟨32, _⟩ => ⟨S256, .f32⟩
  | .hbm, ⟨33, _⟩ => ⟨S1x256, .f32⟩
  | .hbm, ⟨34, _⟩ => ⟨S128x256, .f32⟩
  | .hbm, ⟨35, _⟩ => ⟨S128x256, .bf16⟩
  | .hbm, ⟨36, _⟩ => ⟨S128x256, .f32⟩
  | .hbm, ⟨37, _⟩ => ⟨S128x256, .bf16⟩
  | .hbm, ⟨38, _⟩ => ⟨S128x256, .f32⟩
  | .hbm, ⟨39, _⟩ => ⟨S128x256, .bf16⟩
  | .hbm, ⟨40, _⟩ => ⟨S500000x128, .f32⟩
  | .hbm, ⟨41, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_c_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_c_1 : Ref sig .tc := ⟨.hbm, 16, rfl⟩
abbrev main_call0_call0_c_2 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_c_3 : Ref sig .tc := ⟨.hbm, 24, rfl⟩
abbrev main_call0_call0_v12 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst : Ref sig .tc := ⟨.hbm, 28, rfl⟩
abbrev main_call0_call0_v15 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_v0_0 : Ref sig .tc := ⟨.hbm, 40, rfl⟩
abbrev main_v0_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  concatenates_S384x128_S384x128_S384x256_d1 : Shape.Concatenates [S384x128, S384x128] S384x256 1
  concatenates_S128_S128_S256_d0 : Shape.Concatenates [S128, S128] S256 0
  shapeCasts_S256_S1x256 : S256.ShapeCasts S1x256
  slices_S384x256_S128x256_0_0 : S384x256.Slices ![0, 0] S128x256
  bitsLt_bf16_f32 : FTy.bits .bf16 < FTy.bits .f32
  slices_S384x256_S128x256_128_0 : S384x256.Slices ![128, 0] S128x256
  slices_S384x256_S128x256_256_0 : S384x256.Slices ![256, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  gather_S50000x128_S500000x1_S500000x128_1_0_n_n_0_1_1128_wf : GatherDims.WF S50000x128 S500000x1 S500000x128 [1] [0] [] [0] [] 1 ![1, 128]
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S500000x128.size a
  hwx0_7 : ∀ i : grid0.Coords, EltTy.bits .f32 = 32 ∨ (Rect.block (s := S500000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S500000x128.size a
  hwx0_8 : ∀ i : grid0.Coords, EltTy.bits .f32 = 32 ∨ (Rect.block (s := S500000x128) S2000x128.size (cc0_transform_8 i) (hinb0_8 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x128 : Shape := ⟨2, ![500000, 128]⟩
abbrev S50000x128 : Shape := ⟨2, ![50000, 128]⟩
abbrev S500000 : Shape := ⟨1, ![500000]⟩
abbrev S384x128 : Shape := ⟨2, ![384, 128]⟩
abbrev S128 : Shape := ⟨1, ![128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S50000x128, .f32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x128, .f32⟩
  | .hbm, ⟨17, _⟩ => ⟨S500000x384, .f32⟩
  | .hbm, ⟨18, _⟩ => ⟨S500000x128, .f32⟩
  | .hbm, ⟨19, _⟩ => ⟨S1x128, .f32⟩
  | .hbm, ⟨20, _⟩ => ⟨S500000x128, .f32⟩
  | .hbm, ⟨21, _⟩ => ⟨S500000x128, .f32⟩
  | .hbm, ⟨22, _⟩ => ⟨S500000x128, .f32⟩
  | .hbm, ⟨23, _⟩ => ⟨S1x128, .f32⟩
  | .hbm, ⟨24, _⟩ => ⟨S500000x128, .f32⟩
  | .hbm, ⟨25, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf

class Facts : Prop extends Facts₀ where

variable [Facts]
-- ==== Proof.PreRange.lean ====
/-
  What the precondition says of the index input: its last conjunct is
  `all (src_idx ≥ -50000 ∧ src_idx < 50000)`, an and-reduction of the elementwise test over all 500000 entries, so
  when the precondition holds every entry passes both signed comparisons. The float conjuncts before it are not
  used: the value claim needs only the index range.
-/
import proofs.«402795_j9509057593724_2_alg».proof.Pre_finite_inputs
import Idealize.ShloMosaic.Lib.ReduceAll
import Idealize.ShloMosaic.Lib.ValueIdx

namespace Cert.EdgeMlp

open Idealize.ShloMosaic Cert.Pre_finite_inputs

variable {F : FTy → Type} [FloatOps F] [Cert.Pre_finite_inputs.Facts]

/-- The last ten operations of the precondition: if they answer 1, every index entry is in [-50000, 50000). -/
theorem range_of_part2 (s : IVec S500000 32) (v : IVec S_ 1)
    (h : fn_part2 (F := F) s v ValueIdx.ix0 = 1#1) (i : S500000.Idx) :
    IntOp.cmpi .sge (s i) 4294917296#32 = 1#1 ∧ IntOp.cmpi .slt (s i) 50000#32 = 1#1 := by
  dsimp only [fn_part2] at h
  have h2 := (IntOp.andi_eq_one.1 h).2
  haveI : Subsingleton S_.Idx := ⟨fun a b => funext fun d => d.elim0⟩
  have h3 := Host.reduce_andi_all _ _ _ _ _ h2 i
  exact IntOp.andi_eq_one.1 h3

/-- The precondition gives the index range, entry by entry. -/
theorem range_of_pre (a0 a1 : FVec F S500000x128 .f32) (a2 : FVec F S50000x128 .f32) (s : IVec S500000 32)
    (a4 : FVec F S384x128 .f32) (a5 : FVec F S128 .f32) (a6 : FVec F S384x128 .f32) (a7 : FVec F S128 .f32)
    (h : fn (F := F) a0 a1 a2 s a4 a5 a6 a7 = fun _ => 1#1) (i : S500000.Idx) :
    IntOp.cmpi .sge (s i) 4294917296#32 = 1#1 ∧ IntOp.cmpi .slt (s i) 50000#32 = 1#1 := by
  have h0 := congrFun h ValueIdx.ix0
  simp only [fn, fn_part1] at h0
  exact range_of_part2 s _ h0 i

end Cert.EdgeMlp
-- ==== Proof.HeadSpec.lean ====
/-
  One linear head of the edge update, as a function of whole arrays over the extended reals.

  Row `p` of the concatenated feature matrix is [ef p | g p | eq p] (three runs of 128 entries: the edge's own
  features, its source node's features, its query features). A head is that row times a 384 × 128 weight matrix
  plus a bias: out[p, q] = ∑ k < 384, cat[p, k] · W[k, q] + b[q]  (`headCat`).

  Splitting the sum over 384 into the three runs gives
    out[p, q] = ((∑ k < 128, ef[p, k] · W[k, q] + ∑ k < 128, g[p, k] · W[128 + k, q]) + ∑ k < 128, eq[p, k] · W[256 + k, q]) + b[q]
  (`head`). The two agree on every extended real: only associativity and commutativity of + are used, so no
  finiteness is needed (`headCat_eq_head`).
-/
import Idealize.ShloMosaic.Lib.ValueIdx
import Mathlib.Algebra.BigOperators.Fin

noncomputable section

namespace Cert.EdgeMlp

open Idealize.ShloMosaic Idealize.ShloMosaic.ValueIdx
open scoped BigOperators

/-- Row `k` of the weight matrix's first, second and third run of 128 rows. -/
def rowA (k : Fin 128) : Fin 384 := ⟨k.val, by omega⟩
def rowB (k : Fin 128) : Fin 384 := ⟨128 + k.val, by omega⟩
def rowC (k : Fin 128) : Fin 384 := ⟨256 + k.val, by omega⟩

/-- A sum over 384 positions is the sum over its three runs of 128. -/
theorem sum_three_runs {M : Type*} [AddCommMonoid M] (f : Fin 384 → M) :
    ∑ k : Fin 384, f k = (∑ k : Fin 128, f (rowA k) + ∑ k : Fin 128, f (rowB k)) + ∑ k : Fin 128, f (rowC k) := by
  show ∑ k : Fin (128 + 128 + 128), f k = _
  rw [Fin.sum_univ_add, Fin.sum_univ_add]
  rfl

/-- Entry `k` of row `p` of the concatenated matrix [ef | g | eq]. -/
def catAt (ef g eq : (⟨2, ![500000, 128]⟩ : Shape).Idx → EReal) (p : Fin 500000) (k : Fin 384) : EReal :=
  if h : k.val < 128 then ef (ix2 p ⟨k.val, h⟩)
  else if h2 : k.val < 256 then g (ix2 p ⟨k.val - 128, by omega⟩)
  else eq (ix2 p ⟨k.val - 256, by omega⟩)

theorem catAt_rowA (ef g eq : (⟨2, ![500000, 128]⟩ : Shape).Idx → EReal) (p : Fin 500000) (k : Fin 128) :
    catAt ef g eq p (rowA k) = ef (ix2 p k) := by
  unfold catAt rowA; rw [dif_pos k.isLt]
theorem catAt_rowB (ef g eq : (⟨2, ![500000, 128]⟩ : Shape).Idx → EReal) (p : Fin 500000) (k : Fin 128) :
    catAt ef g eq p (rowB k) = g (ix2 p k) := by
  unfold catAt rowB
  rw [dif_neg (by show ¬ 128 + k.val < 128; omega), dif_pos (by show 128 + k.val < 256; omega)]
  congr 2; apply Fin.ext; show 128 + k.val - 128 = k.val; omega
theorem catAt_rowC (ef g eq : (⟨2, ![500000, 128]⟩ : Shape).Idx → EReal) (p : Fin 500000) (k : Fin 128) :
    catAt ef g eq p (rowC k) = eq (ix2 p k) := by
  unfold catAt rowC
  rw [dif_neg (by show ¬ 256 + k.val < 128; omega), dif_neg (by show ¬ 256 + k.val < 256; omega)]
  congr 2; apply Fin.ext; show 256 + k.val - 256 = k.val; omega

/-- The head as ONE sum over the concatenated row, at coordinates (p, q). -/
def headCatAt (ef g eq : (⟨2, ![500000, 128]⟩ : Shape).Idx → EReal) (W : (⟨2, ![384, 128]⟩ : Shape).Idx → EReal)
    (b : (⟨1, ![128]⟩ : Shape).Idx → EReal) (p : Fin 500000) (q : Fin 128) : EReal :=
  (∑ k : Fin 384, catAt ef g eq p k * W (ix2 k q)) + b (ix1 q)

/-- The head as three sums, one per run of the row, at coordinates (p, q). -/
def headAt (ef g eq : (⟨2, ![500000, 128]⟩ : Shape).Idx → EReal) (W : (⟨2, ![384, 128]⟩ : Shape).Idx → EReal)
    (b : (⟨1, ![128]⟩ : Shape).Idx → EReal) (p : Fin 500000) (q : Fin 128) : EReal :=
  ((∑ k : Fin 128, ef (ix2 p k) * W (ix2 (rowA k) q) + ∑ k : Fin 128, g (ix2 p k) * W (ix2 (rowB k) q))
    + ∑ k : Fin 128, eq (ix2 p k) * W (ix2 (rowC k) q)) + b (ix1 q)

/-- The regrouping law: one sum over 384 is the three sums over 128. -/
theorem headCatAt_eq_headAt (ef g eq : (⟨2, ![500000, 128]⟩ : Shape).Idx → EReal)
    (W : (⟨2, ![384, 128]⟩ : Shape).Idx → EReal) (b : (⟨1, ![128]⟩ : Shape).Idx → EReal) (p : Fin 500000) (q : Fin 128) :
    headCatAt ef g eq W b p q = headAt ef g eq W b p q := by
  unfold headCatAt headAt
  rw [sum_three_runs]
  simp only [catAt_rowA, catAt_rowB, catAt_rowC]

/-- The head as a whole array. -/
def head (ef g eq : (⟨2, ![500000, 128]⟩ : Shape).Idx → EReal) (W : (⟨2, ![384, 128]⟩ : Shape).Idx → EReal)
    (b : (⟨1, ![128]⟩ : Shape).Idx → EReal) : (⟨2, ![500000, 128]⟩ : Shape).Idx → EReal :=
  fun i => headAt ef g eq W b (i 0) (i 1)

end Cert.EdgeMlp

end
-- ==== Proof.RefHead.lean ====
/-
  The reference's two results as the head function of HeadSpec.

  The reference gathers the source rows g = node_feat[src], lays [ef | g | eq] side by side into a 500000 × 384
  matrix, contracts it with each 384 × 128 weight matrix and adds the bias broadcast along the rows. Read at
  (p, q): the contraction is the sum over k < 384 of the concatenated row's entry k times W[k, q]; entry k of the
  concatenation comes from ef, g or eq according to the run of 128 that k falls in (`cat_apply`). That is
  `headCatAt`, which equals the three-sum form `headAt` by the regrouping law.
-/
import proofs.«402795_j9509057593724_2_alg».proof.Proof.Gen.ReferenceIdeal.Read
import proofs.«402795_j9509057593724_2_alg».proof.Proof.HeadSpec

noncomputable section

namespace Cert.ReferenceIdeal.RefValue

open Cert.ReferenceIdeal Cert.ReferenceIdeal.Gen Cert.ReferenceIdeal.Read
open Idealize.ShloMosaic Idealize.ShloMosaic.ValueIdx Cert.EdgeMlp

/-- The concatenation [x0 | g | x1] along the columns, read at row p, column k. -/
theorem cat_apply (x0 g x1 : FVec Ideal S500000x128 .f32) (p : Fin 500000) (k : Fin 384) :
    concatenate S500000x384 1 [⟨S500000x128, x0⟩, ⟨S500000x128, g⟩, ⟨S500000x128, x1⟩]
      concatenates_S500000x128_S500000x128_S500000x128_S500000x384_d1 (ix2 p k) = catAt x0 g x1 p k := by
  unfold catAt
  by_cases h1 : k.val < 128
  · rw [dif_pos h1]
    exact concatenate_apply_piece (1 : Fin S500000x384.rank) _ _ (ix2 p k) 0 (by simp) S500000x128 x0 rfl rfl 0 rfl
      (ix2 p ⟨k.val, h1⟩) (fun b hb => by match b with | ⟨0, _⟩ => rfl | ⟨1, _⟩ => exact absurd rfl hb)
      (by show 0 + k.val = k.val; omega)
  · rw [dif_neg h1]
    by_cases h2 : k.val < 256
    · rw [dif_pos h2]
      exact concatenate_apply_piece (1 : Fin S500000x384.rank) _ _ (ix2 p k) 1 (by simp) S500000x128 g rfl rfl 128 rfl
        (ix2 p ⟨k.val - 128, by omega⟩) (fun b hb => by match b with | ⟨0, _⟩ => rfl | ⟨1, _⟩ => exact absurd rfl hb)
        (by show 128 + (k.val - 128) = k.val; omega)
    · rw [dif_neg h2]
      exact concatenate_apply_piece (1 : Fin S500000x384.rank) _ _ (ix2 p k) 2 (by simp) S500000x128 x1 rfl rfl 256 rfl
        (ix2 p ⟨k.val - 256, by have := k.isLt; omega⟩) (fun b hb => by match b with | ⟨0, _⟩ => rfl | ⟨1, _⟩ => exact absurd rfl hb)
        (by show 256 + (k.val - 256) = k.val; omega)

/-- The first result: the head with W_feat and b_feat. -/
theorem v11_eq_head (x0 x1 : FVec Ideal S500000x128 .f32) (x2 : FVec Ideal S50000x128 .f32) (x3 : IVec S500000 32)
    (x4 : FVec Ideal S384x128 .f32) (x5 : FVec Ideal S128 .f32) :
    val_main_v11 (F := Ideal) x0 x1 x2 x3 x4 x5 = head x0 (val_main_v6 (F := Ideal) x2 x3) x1 x4 x5 := by
  funext i
  obtain ⟨p, q, rfl⟩ : ∃ (p : Fin 500000) (q : Fin 128), i = ix2 p q := ⟨i 0, i 1, eq_ix2 i⟩
  rw [val_main_v11_apply, val_main_v8_apply, val_main_v10_apply, val_main_v9_apply]
  show (∑ k : Fin 384, _ * _) + _ = headAt x0 (val_main_v6 (F := Ideal) x2 x3) x1 x4 x5 p q
  rw [← headCatAt_eq_headAt]
  unfold headCatAt
  refine congrArg₂ (· + ·) (Finset.sum_congr rfl fun k _ => congrArg₂ (· * ·) ?_ ?_) ?_
  · have e : lidx_main_v8 (ix2 p q) k = ix2 p k := funext fun a => Fin.ext (by match a with | ⟨0, _⟩ => rfl | ⟨1, _⟩ => rfl)
    rw [e]; exact cat_apply x0 _ x1 p k
  · exact congrArg x4 (funext fun a => Fin.ext (by match a with | ⟨0, _⟩ => rfl | ⟨1, _⟩ => rfl))
  · exact congrArg x5 (funext fun a => Fin.ext (by match a with | ⟨0, _⟩ => rfl))

/-- The second result: the head with W_query and b_query. -/
theorem v15_eq_head (x0 x1 : FVec Ideal S500000x128 .f32) (x2 : FVec Ideal S50000x128 .f32) (x3 : IVec S500000 32)
    (x6 : FVec Ideal S384x128 .f32) (x7 : FVec Ideal S128 .f32) :
    val_main_v15 (F := Ideal) x0 x1 x2 x3 x6 x7 = head x0 (val_main_v6 (F := Ideal) x2 x3) x1 x6 x7 := by
  funext i
  obtain ⟨p, q, rfl⟩ : ∃ (p : Fin 500000) (q : Fin 128), i = ix2 p q := ⟨i 0, i 1, eq_ix2 i⟩
  rw [val_main_v15_apply, val_main_v12_apply, val_main_v14_apply, val_main_v13_apply]
  show (∑ k : Fin 384, _ * _) + _ = headAt x0 (val_main_v6 (F := Ideal) x2 x3) x1 x6 x7 p q
  rw [← headCatAt_eq_headAt]
  unfold headCatAt
  refine congrArg₂ (· + ·) (Finset.sum_congr rfl fun k _ => congrArg₂ (· * ·) ?_ ?_) ?_
  · have e : lidx_main_v12 (ix2 p q) k = ix2 p k := funext fun a => Fin.ext (by match a with | ⟨0, _⟩ => rfl | ⟨1, _⟩ => rfl)
    rw [e]; exact cat_apply x0 _ x1 p k
  · exact congrArg x6 (funext fun a => Fin.ext (by match a with | ⟨0, _⟩ => rfl | ⟨1, _⟩ => rfl))
  · exact congrArg x7 (funext fun a => Fin.ext (by match a with | ⟨0, _⟩ => rfl))

end Cert.ReferenceIdeal.RefValue

end
-- ==== Proof.KernelBlock.lean ====
/-
  The kernel body's arithmetic at one element, over the extended reals.

  From a 2000-row block of ef, eq and the gathered source rows, the three resident 128 × 256 weight blocks and the
  1 × 256 bias row, the body forms  ef · W1 + src · W2 + eq · W3 + bias  as a 2000 × 256 value (the changes of float
  format are the identity here, and a matrix product into the zero accumulator is the plain sum of products). At
  (p, q):  ((∑ k < 128, ef[p,k]·W1[k,q] + ∑ k < 128, src[p,k]·W2[k,q]) + ∑ k < 128, eq[p,k]·W3[k,q]) + bias[0,q].
-/
import proofs.«402795_j9509057593724_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! The operand indices of the 2000 × 128 by 128 × 256 product, axis by axis. -/

theorem lhs_axis0 (i : S2000x256.Idx) (r : dot_S2000x128_S128x256_S2000x256_1_0_0_1_n_n.contr.Idx) :
    (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_axis1 (i : S2000x256.Idx) (r : dot_S2000x128_S128x256_S2000x256_1_0_0_1_n_n.contr.Idx) :
    (dot_S2000x128_S128x256_S2000x256_1_0_0_1_n_n.lhsIdx i r 1).val = (r ⟨0, by decide⟩).val :=
  dot_S2000x128_S128x256_S2000x256_1_0_0_1_n_n.lhsIdx_val_of_single rfl i r
theorem rhs_axis0 (i : S2000x256.Idx) (r : dot_S2000x128_S128x256_S2000x256_1_0_0_1_n_n.contr.Idx) :
    (dot_S2000x128_S128x256_S2000x256_1_0_0_1_n_n.rhsIdx i r 0).val = (r ⟨0, by decide⟩).val :=
  dot_S2000x128_S128x256_S2000x256_1_0_0_1_n_n.rhsIdx_val_of_single rfl i r
theorem rhs_axis1 (i : S2000x256.Idx) (r : dot_S2000x128_S128x256_S2000x256_1_0_0_1_n_n.contr.Idx) :
    (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- One block product into the zero accumulator, at (p, q): the sum over the 128 shared positions. -/
theorem product_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's 2000 × 256 value at (p, q). -/
theorem pay1_apply (v0 v2 v4 : Vec Ideal S2000x128 .f32) (v7 v9 v11 : Vec Ideal S128x256 .bf16) (v18 : Vec Ideal S1x256 .f32)
    (p : Fin 2000) (q : Fin 256) :
    k0_pay1 (F := Ideal) v0 v2 v4 v7 v9 v11 v18 (ix2 p q)
      = ((∑ k : Fin 128, v0 (ix2 p k) * v7 (ix2 k q) + ∑ k : Fin 128, v4 (ix2 p k) * v9 (ix2 k q))
          + ∑ k : Fin 128, v2 (ix2 p k) * v11 (ix2 k q)) + v18 (ix2 (0 : Fin 1) q) := by
  unfold k0_pay1
  simp only [shapeCast_self]
  show ((matmul (F := Ideal) dot_S2000x128_S128x256_S2000x256_1_0_0_1_n_n none (truncf .bf16 v0 bitsLt_bf16_f32) v7 (constant S2000x256 .f32 0x00000000#32) (ix2 p q)
        + matmul (F := Ideal) dot_S2000x128_S128x256_S2000x256_1_0_0_1_n_n none (truncf .bf16 v4 bitsLt_bf16_f32) v9 (constant S2000x256 .f32 0x00000000#32) (ix2 p q))
        + matmul (F := Ideal) dot_S2000x128_S128x256_S2000x256_1_0_0_1_n_n none (truncf .bf16 v2 bitsLt_bf16_f32) v11 (constant S2000x256 .f32 0x00000000#32) (ix2 p q))
        + broadcastTo (α := Ideal .f32) S2000x256 v18 broadcasts_S1x256_S2000x256 (ix2 p q) = _
  rw [product_apply, product_apply, product_apply, broadcastTo_1b_ab_apply]
  rfl

end Cert.KernelIdeal.BodyValue

end
-- ==== Proof.KernelHost.lean ====
/-
  The arrays the kernel region finds, as functions of the program's arguments.

  Before the region the program prepares: the gathered source rows (a take with negative indices wrapped, guarded
  by an in-bounds test that replaces an out-of-range row by a fill value), the two weight matrices laid side by
  side into 384 × 256 and cut into three 128 × 256 row blocks, and the two bias vectors joined into one 1 × 256 row.
-/
import proofs.«402795_j9509057593724_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The index with a negative entry counted from the end. -/
def wrapped (s : IVec S500000 32) : IVec S500000 32 :=
  select (cmpi .slt s (broadcastInDim S500000 ![] bcast_S_S500000 (constantI S_ 32 0#32)))
    (addi s (broadcastInDim S500000 ![] bcast_S_S500000 (constantI S_ 32 50000#32))) s

/-- The wrapped index as a column of start indices. -/
def startIdx (s : IVec S500000 32) : IVec S500000x1 32 :=
  broadcastInDim S500000x1 ![0] bcast_S500000_S500000x1_0 (wrapped s)

/-- The in-bounds test per edge: 0 ≤ start ∧ start ≤ 49999. -/
def inb (s : IVec S500000 32) : IVec S500000 1 :=
  Host.reduce IntOp.andi
    (andi (cmpi .sge (startIdx s) (broadcastInDim S500000x1 ![] bcast_S_S500000x1 (constantI S_ 32 0#32)))
      (cmpi .sle (startIdx s) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- The rows of the node table at the start indices. -/
def rows (nf : FVec F S50000x128 .f32) (s : IVec S500000 32) : FVec F S500000x128 .f32 :=
  Host.gather gather_S50000x128_S500000x1_S500000x128_1_0_n_n_0_1_1128 nf (startIdx s)

/-- The guarded take: the row where the test passes, the fill value elsewhere. -/
def taken (nf : FVec F S50000x128 .f32) (s : IVec S500000 32) : FVec F S500000x128 .f32 :=
  select (broadcastInDim S500000x128 ![0] bcast_S500000_S500000x128_0 (inb s)) (rows nf s)
    (broadcastInDim S500000x128 ![] bcast_S_S500000x128 (constant S_ .f32 0x7FC00000#32))

/-- The two weight matrices side by side. -/
def wcat (wf wq : FVec F S384x128 .f32) : FVec F S384x256 .f32 :=
  concatenate S384x256 1 [⟨S384x128, wf⟩, ⟨S384x128, wq⟩] concatenates_S384x128_S384x128_S384x256_d1

/-- Its three row blocks, in the matrix unit's input format. -/
def wblk1 (wf wq : FVec F S384x128 .f32) : FVec F S128x256 .bf16 :=
  truncf .bf16 (extractStridedSlice S128x256 ![0, 0] (wcat wf wq) slices_S384x256_S128x256_0_0) bitsLt_bf16_f32
def wblk2 (wf wq : FVec F S384x128 .f32) : FVec F S128x256 .bf16 :=
  truncf .bf16 (extractStridedSlice S128x256 ![128, 0] (wcat wf wq) slices_S384x256_S128x256_128_0) bitsLt_bf16_f32
def wblk3 (wf wq : FVec F S384x128 .f32) : FVec F S128x256 .bf16 :=
  truncf .bf16 (extractStridedSlice S128x256 ![256, 0] (wcat wf wq) slices_S384x256_S128x256_256_0) bitsLt_bf16_f32

/-- The two bias vectors joined, as one row. -/
def brow (bf bq : FVec F S128 .f32) : FVec F S1x256 .f32 :=
  shapeCast S1x256 (concatenate S256 0 [⟨S128, bf⟩, ⟨S128, bq⟩] concatenates_S128_S128_S256_d0) shapeCasts_S256_S1x256

variable (m : (ℓ : Loc nD τ sig) → Buf (Elt F) ℓ)

set_option maxHeartbeats 4000000 in
theorem V_src (c : Dev nD) : (V m c main_call0_v0 : Vec F S500000x128 .f32)
    = taken (m ((c : Thread nD τ).loc main_arg2)) (m ((c : Thread nD τ).loc main_arg3)) := by
  unfold taken rows inb startIdx wrapped
  dsimp only [V, hostOps0]; after_results
  simp only [TRef.toBuf, TRef.ofBuf, cast_eq]

set_option maxHeartbeats 4000000 in
theorem V_w1 (c : Dev nD) : (V m c main_call0_v5 : Vec F S128x256 .bf16)
    = wblk1 (m ((c : Thread nD τ).loc main_arg4)) (m ((c : Thread nD τ).loc main_arg6)) := by
  dsimp only [V, hostOps0]; after_results; rfl

set_option maxHeartbeats 4000000 in
theorem V_w2 (c : Dev nD) : (V m c main_call0_v7 : Vec F S128x256 .bf16)
    = wblk2 (m ((c : Thread nD τ).loc main_arg4)) (m ((c : Thread nD τ).loc main_arg6)) := by
  dsimp only [V, hostOps0]; after_results; rfl

set_option maxHeartbeats 4000000 in
theorem V_w3 (c : Dev nD) : (V m c main_call0_v9 : Vec F S128x256 .bf16)
    = wblk3 (m ((c : Thread nD τ).loc main_arg4)) (m ((c : Thread nD τ).loc main_arg6)) := by
  dsimp only [V, hostOps0]; after_results; rfl

set_option maxHeartbeats 4000000 in
theorem V_b (c : Dev nD) : (V m c main_call0_v3 : Vec F S1x256 .f32)
    = brow (m ((c : Thread nD τ).loc main_arg5)) (m ((c : Thread nD τ).loc main_arg7)) := by
  dsimp only [V, hostOps0]; after_results; rfl

end Cert.KernelIdeal.HostValue

end
-- ==== Proof.WrapWord.lean ====
/-
  A signed 32-bit index `s` into an axis of 50000 rows, with -50000 ≤ s < 50000. Negative indices count
  from the end: the wrapped index is `s + 50000` when `s < 0` and `s` otherwise, and it lies in
  [0, 49999]. So the in-bounds test `0 ≤ wrapped ∧ wrapped ≤ 49999` that guards the row read answers 1.
-/
import Idealize.ShloMosaic.Lib.Affine
import Idealize.ShloMosaic.Lib.ValueIdx

namespace Cert.EdgeMlp

open Idealize.ShloMosaic

/-- The wrapped index of a word in [-50000, 50000). -/
def wrapWord (s : BitVec 32) : BitVec 32 :=
  Scalar.select (IntOp.cmpi .slt s 0#32) (IntOp.addi s 50000#32) s

/-- The signed value of the wrapped index: in [0, 49999]. -/
theorem wrapWord_toInt (s : BitVec 32) (hlo : IntOp.cmpi .sge s 4294917296#32 = 1#1)
    (hhi : IntOp.cmpi .slt s 50000#32 = 1#1) : 0 ≤ (wrapWord s).toInt ∧ (wrapWord s).toInt ≤ 49999 := by
  have h1 : (-50000 : Int) ≤ s.toInt := by
    have := IntOp.cmpi_sge.1 hlo
    rwa [show (4294917296#32 : BitVec 32).toInt = -50000 from by decide] at this
  have h2 : s.toInt < 50000 := by
    have := IntOp.cmpi_slt.1 hhi
    rwa [show (50000#32 : BitVec 32).toInt = 50000 from by decide] at this
  unfold wrapWord Scalar.select
  by_cases hneg : IntOp.cmpi .slt s 0#32 = 1#1
  · have h3 : s.toInt < 0 := by
      have := IntOp.cmpi_slt.1 hneg
      rwa [show (0#32 : BitVec 32).toInt = 0 from by decide] at this
    have hc : IntOp.cmpi .slt s 0#32 = 1 := hneg
    rw [if_pos hc]
    have h4 : (IntOp.addi s 50000#32).toInt = s.toInt + 50000 := by
      show (s + 50000#32).toInt = _
      rw [BitVec.toInt_add, show (50000#32 : BitVec 32).toInt = 50000 from by decide]
      have := s.toInt_lt; have := s.le_toInt
      rw [Int.bmod_def]; split <;> omega
    rw [h4]; omega
  · have h3 : ¬ s.toInt < 0 := fun h => hneg (IntOp.cmpi_slt.2 (by
      rwa [show (0#32 : BitVec 32).toInt = 0 from by decide]))
    have hc : ¬ IntOp.cmpi .slt s 0#32 = 1 := hneg
    rw [if_neg hc]; omega

/-- The in-bounds test on the wrapped index answers 1. -/
theorem wrapWord_inb (s : BitVec 32) (hlo : IntOp.cmpi .sge s 4294917296#32 = 1#1)
    (hhi : IntOp.cmpi .slt s 50000#32 = 1#1) :
    IntOp.andi (IntOp.cmpi .sge (wrapWord s) 0#32) (IntOp.cmpi .sle (wrapWord s) 49999#32) = 1#1 := by
  obtain ⟨h0, h1⟩ := wrapWord_toInt s hlo hhi
  rw [IntOp.andi_eq_one, IntOp.cmpi_sge, IntOp.cmpi_sle,
    show (0#32 : BitVec 32).toInt = 0 from by decide, show (49999#32 : BitVec 32).toInt = 49999 from by decide]
  exact ⟨h0, h1⟩

end Cert.EdgeMlp
-- ==== Proof.KernelHostRead.lean ====
/-
  The region's prepared arrays read at an element, over the extended reals.

  * Weight block j, at (k, c): the side-by-side matrix [W_feat | W_query] at row 128·j + k, column c; column c < 128
    is W_feat's column c, column 128 + c is W_query's column c.
  * The bias row at (0, c): b_feat[c] for c < 128, b_query[c - 128] after.
  * The guarded take: when every index entry lies in [-50000, 50000) the wrapped index lies in [0, 49999], the
    in-bounds test passes at every edge, and the guarded take is the plain take of the rows.
-/
import proofs.«402795_j9509057593724_2_alg».proof.Proof.KernelHost
import proofs.«402795_j9509057593724_2_alg».proof.Proof.WrapWord
import proofs.«402795_j9509057593724_2_alg».proof.Proof.HeadSpec
import Idealize.ShloMosaic.Lib.ValueIdx
import Idealize.ShloMosaic.Lib.ValueLayout
import Idealize.ShloMosaic.Lib.Pipeline.Value
import Idealize.ShloMosaic.PureOps.Reduce

noncomputable section

namespace Cert.KernelIdeal.HostValue

open Cert.KernelIdeal Cert.KernelIdeal.Gen Idealize.ShloMosaic Idealize.ShloMosaic.ValueIdx Cert.EdgeMlp

/-! ## The weights -/

theorem wcat_left (wf wq : FVec Ideal S384x128 .f32) (r : Fin 384) (q : Fin 128) :
    wcat wf wq (ix2 r (⟨q.val, by omega⟩ : Fin 256)) = wf (ix2 r q) :=
  concatenate_pair_apply_left (1 : Fin S384x256.rank) wf wq _ _ rfl (ix2 r q)
    (fun b => by match b with | ⟨0, _⟩ => rfl | ⟨1, _⟩ => rfl)

theorem wcat_right (wf wq : FVec Ideal S384x128 .f32) (r : Fin 384) (q : Fin 128) :
    wcat wf wq (ix2 r (⟨q.val + 128, by omega⟩ : Fin 256)) = wq (ix2 r q) :=
  concatenate_pair_apply_right (1 : Fin S384x256.rank) wf wq _ _ rfl rfl (ix2 r q)
    (fun b hb => by match b with | ⟨0, _⟩ => rfl | ⟨1, _⟩ => exact absurd rfl hb) rfl

theorem wblk1_apply (wf wq : FVec Ideal S384x128 .f32) (k : Fin 128) (c : Fin 256) :
    wblk1 wf wq (ix2 k c) = wcat wf wq (ix2 (rowA k) c) := by
  show extractStridedSlice S128x256 ![0, 0] (wcat wf wq) slices_S384x256_S128x256_0_0 (ix2 k c) = _
  exact slice2_axis0_apply 0 (wcat wf wq) slices_S384x256_S128x256_0_0 k c (rowA k) (by show k.val = 0 + k.val; omega)
theorem wblk2_apply (wf wq : FVec Ideal S384x128 .f32) (k : Fin 128) (c : Fin 256) :
    wblk2 wf wq (ix2 k c) = wcat wf wq (ix2 (rowB k) c) := by
  show extractStridedSlice S128x256 ![128, 0] (wcat wf wq) slices_S384x256_S128x256_128_0 (ix2 k c) = _
  exact slice2_axis0_apply 128 (wcat wf wq) slices_S384x256_S128x256_128_0 k c (rowB k) rfl
theorem wblk3_apply (wf wq : FVec Ideal S384x128 .f32) (k : Fin 128) (c : Fin 256) :
    wblk3 wf wq (ix2 k c) = wcat wf wq (ix2 (rowC k) c) := by
  show extractStridedSlice S128x256 ![256, 0] (wcat wf wq) slices_S384x256_S128x256_256_0 (ix2 k c) = _
  exact slice2_axis0_apply 256 (wcat wf wq) slices_S384x256_S128x256_256_0 k c (rowC k) rfl

/-! ## The bias row -/

theorem brow_left (bf bq : FVec Ideal S128 .f32) (q : Fin 128) :
    brow bf bq (ix2 (0 : Fin 1) (⟨q.val, by omega⟩ : Fin 256)) = bf (ix1 q) := by
  unfold brow
  rw [shapeCast_a_1a_apply]
  exact concatenate_pair_apply_left (0 : Fin S256.rank) bf bq _ _ rfl (ix1 q)
    (fun b => by match b with | ⟨0, _⟩ => rfl)

theorem brow_right (bf bq : FVec Ideal S128 .f32) (q : Fin 128) :
    brow bf bq (ix2 (0 : Fin 1) (⟨q.val + 128, by omega⟩ : Fin 256)) = bq (ix1 q) := by
  unfold brow
  rw [shapeCast_a_1a_apply]
  exact concatenate_pair_apply_right (0 : Fin S256.rank) bf bq _ _ rfl rfl (ix1 q)
    (fun b hb => by match b with | ⟨0, _⟩ => exact absurd rfl hb) rfl

/-! ## The guarded take -/

/-- An and-fold from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_one f l fun n hn => h n (List.mem_cons_of_mem _ hn)

/-- With every index entry in [-50000, 50000), the in-bounds test passes at every edge. -/
theorem inb_one (s : IVec S500000 32)
    (hin : ∀ i : S500000.Idx, IntOp.cmpi .sge (s i) 4294917296#32 = 1#1 ∧ IntOp.cmpi .slt (s i) 50000#32 = 1#1)
    (i : S500000.Idx) : inb s i = 1#1 := by
  unfold inb
  rw [Host.reduce_eq_foldl]
  refine foldl_andi_one _ _ fun j _ => ?_
  show IntOp.andi (IntOp.cmpi .sge (wrapWord (s _)) 0#32) (IntOp.cmpi .sle (wrapWord (s _)) 49999#32) = 1#1
  exact wrapWord_inb _ (hin _).1 (hin _).2

/-- So the guarded take is the take. -/
theorem taken_eq_rows (nf : FVec Ideal S50000x128 .f32) (s : IVec S500000 32)
    (hin : ∀ i : S500000.Idx, IntOp.cmpi .sge (s i) 4294917296#32 = 1#1 ∧ IntOp.cmpi .slt (s i) 50000#32 = 1#1) :
    taken nf s = rows nf s := by
  funext j
  unfold taken
  show Scalar.select (inb s _) (rows nf s j) _ = rows nf s j
  rw [inb_one s hin]
  exact select_one _ _

end Cert.KernelIdeal.HostValue

end
-- ==== Proof.KernelFinal.lean ====
/-
  The kernel's two output arrays after the run, as whole-array functions of the arguments.

  Grid point t handles rows 2000·t … 2000·t + 1999: the blocks of ef, eq and the taken source rows at those rows,
  the three weight blocks and the bias row whole. What it writes back to the first output is, at (p, q) with q < 128,
  the body's 2000 × 256 value at (p, q); to the second output, the value at (p, 128 + q). Read through the blocks
  this is the head function at row 2000·t + p: with W_feat / b_feat for the first output and W_query / b_query for
  the second. The 250 blocks tile the 500000 rows, so each output array ends holding the head function everywhere.
-/
import proofs.«402795_j9509057593724_2_alg».proof.Proof.Gen.KernelIdeal.Value
import proofs.«402795_j9509057593724_2_alg».proof.Proof.KernelBlock
import proofs.«402795_j9509057593724_2_alg».proof.Proof.KernelHostRead
import proofs.«402795_j9509057593724_2_alg».proof.Proof.HeadSpec
import Idealize.ShloMosaic.Lib.Pipeline.Value
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeMlp Cert.KernelIdeal.HostValue
open Idealize.ShloMosaic.Pipeline (Dat)

theorem hz : (![0, 0] : Fin 2 → Nat) = fun _ => 0 := funext fun a => by fin_cases a <;> rfl

/-! ## One block of each output, at an element -/

/-- The first output's block at (p, q): the body's value at column q. -/
theorem out7_apply (x0 x1 x2 : Vec Ideal S2000x128 .f32) (x3 x4 x5 : Vec Ideal S128x256 .bf16) (x6 : Vec Ideal S1x256 .f32)
    (p : Fin 2000) (q : Fin 128) :
    out0_7 x0 x1 x2 x3 x4 x5 x6 (ix2 p q)
      = ((∑ k : Fin 128, x0 (ix2 p k) * x3 (ix2 k (⟨q.val, by omega⟩ : Fin 256))
            + ∑ k : Fin 128, x2 (ix2 p k) * x4 (ix2 k (⟨q.val, by omega⟩ : Fin 256)))
          + ∑ k : Fin 128, x1 (ix2 p k) * x5 (ix2 k (⟨q.val, by omega⟩ : Fin 256)))
        + x6 (ix2 (0 : Fin 1) (⟨q.val, by omega⟩ : Fin 256)) := by
  unfold out0_7
  rw [View.canon_unit_zero hz]
  simp only [View.ld_unit_zero (S := S2000x128) hz, View.ld_unit_zero (S := S128x256) hz, View.ld_unit_zero (S := S1x256) hz]
  show extractStridedSlice S2000x128 ![0, 0] (k0_pay1 (F := Ideal) x0 x1 x2 x3 x4 x5 x6) slices_S2000x256_o0_0_S2000x128 (ix2 p q) = _
  rw [slice2_axis1_apply 0 _ _ p q (⟨q.val, by omega⟩ : Fin 256) (by show q.val = 0 + q.val; omega), BodyValue.pay1_apply]

/-- The second output's block at (p, q): the body's value at column 128 + q. -/
theorem out8_apply (x0 x1 x2 : Vec Ideal S2000x128 .f32) (x3 x4 x5 : Vec Ideal S128x256 .bf16) (x6 : Vec Ideal S1x256 .f32)
    (p : Fin 2000) (q : Fin 128) :
    out0_8 x0 x1 x2 x3 x4 x5 x6 (ix2 p q)
      = ((∑ k : Fin 128, x0 (ix2 p k) * x3 (ix2 k (⟨q.val + 128, by omega⟩ : Fin 256))
            + ∑ k : Fin 128, x2 (ix2 p k) * x4 (ix2 k (⟨q.val + 128, by omega⟩ : Fin 256)))
          + ∑ k : Fin 128, x1 (ix2 p k) * x5 (ix2 k (⟨q.val + 128, by omega⟩ : Fin 256)))
        + x6 (ix2 (0 : Fin 1) (⟨q.val + 128, by omega⟩ : Fin 256)) := by
  unfold out0_8
  rw [View.canon_unit_zero hz]
  simp only [View.ld_unit_zero (S := S2000x128) hz, View.ld_unit_zero (S := S128x256) hz, View.ld_unit_zero (S := S1x256) hz]
  show extractStridedSlice S2000x128 ![0, 128] (k0_pay1 (F := Ideal) x0 x1 x2 x3 x4 x5 x6) slices_S2000x256_o0_128_S2000x128 (ix2 p q) = _
  rw [slice2_axis1_apply 128 _ _ p q (⟨q.val + 128, by omega⟩ : Fin 256) (by show q.val + 128 = 128 + q.val; omega), BodyValue.pay1_apply]

/-! ## Where each window's block sits -/

/-- The index maps, decided over the 250 grid points: the row windows sit at block row t, the resident ones at 0. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Row p of grid point t's block is row 2000·t + p of the array. -/
def rowOf (t : Fin cfg0.N) (p : Fin 2000) : Fin 500000 :=
  ⟨t.val * 2000 + p.val, by have h := t.isLt; have hN : cfg0.N = 250 := N_0; omega⟩

variable (m : (ℓ : Loc nD τ sig) → Buf (Elt Ideal) ℓ)

theorem blk0_read (c : Dev nD) (t : Fin cfg0.N) (p : Fin 2000) (k : Fin 128) :
    iblk m c 0 t (ix2 p k) = V m c main_arg0 (ix2 (rowOf t p) k) := by
  obtain ⟨⟨e0, e1⟩, -⟩ := idx_rows t
  show V m c main_arg0 (((cfg0.win 0).blk t).view.emb (ix2 p k)) = _
  refine congrArg (V m c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem blk1_read (c : Dev nD) (t : Fin cfg0.N) (p : Fin 2000) (k : Fin 128) :
    iblk m c 1 t (ix2 p k) = V m c main_arg1 (ix2 (rowOf t p) k) := by
  obtain ⟨-, ⟨e0, e1⟩, -⟩ := idx_rows t
  show V m c main_arg1 (((cfg0.win 1).blk t).view.emb (ix2 p k)) = _
  refine congrArg (V m c main_arg1) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem blk2_read (c : Dev nD) (t : Fin cfg0.N) (p : Fin 2000) (k : Fin 128) :
    iblk m c 2 t (ix2 p k) = V m c main_call0_v0 (ix2 (rowOf t p) k) := by
  obtain ⟨-, -, ⟨e0, e1⟩, -⟩ := idx_rows t
  show V m c main_call0_v0 (((cfg0.win 2).blk t).view.emb (ix2 p k)) = _
  refine congrArg (V m c main_call0_v0) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem blk3_read (c : Dev nD) (t : Fin cfg0.N) (k : Fin 128) (q : Fin 256) :
    iblk m c 3 t (ix2 k q) = V m c main_call0_v5 (ix2 k q) := by
  obtain ⟨⟨e0, e1⟩, -⟩ := idx_fixed t
  show V m c main_call0_v5 (((cfg0.win 3).blk t).view.emb (ix2 k q)) = _
  refine congrArg (V m c main_call0_v5) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

theorem blk4_read (c : Dev nD) (t : Fin cfg0.N) (k : Fin 128) (q : Fin 256) :
    iblk m c 4 t (ix2 k q) = V m c main_call0_v7 (ix2 k q) := by
  obtain ⟨-, ⟨e0, e1⟩, -⟩ := idx_fixed t
  show V m c main_call0_v7 (((cfg0.win 4).blk t).view.emb (ix2 k q)) = _
  refine congrArg (V m c main_call0_v7) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

theorem blk5_read (c : Dev nD) (t : Fin cfg0.N) (k : Fin 128) (q : Fin 256) :
    iblk m c 5 t (ix2 k q) = V m c main_call0_v9 (ix2 k q) := by
  obtain ⟨-, -, ⟨e0, e1⟩, -⟩ := idx_fixed t
  show V m c main_call0_v9 (((cfg0.win 5).blk t).view.emb (ix2 k q)) = _
  refine congrArg (V m c main_call0_v9) (funext fun a => Fin.ext ?_)
  match a with
  | ⟨0, _⟩ => show win0_5.index t (0 : Fin 2) * 128 + 1 * k.val = k.val; rw [e0]; omega
  | ⟨1, _⟩ => show win0_5.index t (1 : Fin 2) * 256 + 1 * q.val = q.val; rw [e1]; omega

theorem blk6_read (c : Dev nD) (t : Fin cfg0.N) (u : Fin 1) (q : Fin 256) :
    iblk m c 6 t (ix2 u q) = V m c main_call0_v3 (ix2 u q) := by
  obtain ⟨-, -, -, ⟨e0, e1⟩⟩ := idx_fixed t
  show V m c main_call0_v3 (((cfg0.win 6).blk t).view.emb (ix2 u q)) = _
  refine congrArg (V m c main_call0_v3) (funext fun a => Fin.ext ?_)
  match a with
  | ⟨0, _⟩ => show win0_6.index t (0 : Fin 2) * 1 + 1 * u.val = u.val; rw [e0]; omega
  | ⟨1, _⟩ => show win0_6.index t (1 : Fin 2) * 256 + 1 * q.val = q.val; rw [e1]; omega

theorem emb7 (t : Fin cfg0.N) (p : Fin 2000) (q : Fin 128) :
    ((cfg0.win 7).blk t).view.emb (ix2 p q) = ix2 (rowOf t p) q := by
  obtain ⟨-, -, -, ⟨e0, e1⟩, -⟩ := idx_rows t
  funext a; apply Fin.ext
  match a with
  | ⟨0, _⟩ => show win0_7.index t (0 : Fin 2) * 2000 + 1 * p.val = t.val * 2000 + p.val; rw [e0]; omega
  | ⟨1, _⟩ => show win0_7.index t (1 : Fin 2) * 128 + 1 * q.val = q.val; rw [e1]; omega

theorem emb8 (t : Fin cfg0.N) (p : Fin 2000) (q : Fin 128) :
    ((cfg0.win 8).blk t).view.emb (ix2 p q) = ix2 (rowOf t p) q := by
  obtain ⟨-, -, -, -, ⟨e0, e1⟩⟩ := idx_rows t
  funext a; apply Fin.ext
  match a with
  | ⟨0, _⟩ => show win0_8.index t (0 : Fin 2) * 2000 + 1 * p.val = t.val * 2000 + p.val; rw [e0]; omega
  | ⟨1, _⟩ => show win0_8.index t (1 : Fin 2) * 128 + 1 * q.val = q.val; rw [e1]; omega

/-! ## The two output arrays -/

/-- What the first output array ends holding: the head with W_feat and b_feat over the guarded take. -/
def G7 (c : Dev nD) : S500000x128.Idx → EReal :=
  head (m ((c : Thread nD τ).loc main_arg0))
    (taken (F := Ideal) (m ((c : Thread nD τ).loc main_arg2)) (m ((c : Thread nD τ).loc main_arg3)))
    (m ((c : Thread nD τ).loc main_arg1)) (m ((c : Thread nD τ).loc main_arg4)) (m ((c : Thread nD τ).loc main_arg5))

/-- What the second output array ends holding: the head with W_query and b_query over the guarded take. -/
def G8 (c : Dev nD) : S500000x128.Idx → EReal :=
  head (m ((c : Thread nD τ).loc main_arg0))
    (taken (F := Ideal) (m ((c : Thread nD τ).loc main_arg2)) (m ((c : Thread nD τ).loc main_arg3)))
    (m ((c : Thread nD τ).loc main_arg1)) (m ((c : Thread nD τ).loc main_arg6)) (m ((c : Thread nD τ).loc main_arg7))

/-- What point t writes back to the first output is block t of `G7`. -/
theorem flushed7_eq (c : Dev nD) (t : Fin cfg0.N) :
    (dats m 0 c).flushed 7 t = ((cfg0.win 7).blk t).view.read (Elt Ideal) (G7 m c) := by
  rw [Value.flushed7]
  funext y
  obtain ⟨p, q, rfl⟩ : ∃ (p : Fin 2000) (q : Fin 128), y = ix2 p q := ⟨y 0, y 1, eq_ix2 y⟩
  show out0_7 (iblk m c 0 t) (iblk m c 1 t) (iblk m c 2 t) (iblk m c 3 t) (iblk m c 4 t) (iblk m c 5 t) (iblk m c 6 t) (ix2 p q)
    = G7 m c (((cfg0.win 7).blk t).view.emb (ix2 p q))
  rw [emb7 t p q]
  refine (out7_apply (iblk m c 0 t) (iblk m c 1 t) (iblk m c 2 t) (iblk m c 3 t) (iblk m c 4 t) (iblk m c 5 t) (iblk m c 6 t) p q).trans ?_
  show _ = headAt _ _ _ _ _ (rowOf t p) q
  unfold headAt
  refine congrArg₂ (· + ·) (congrArg₂ (· + ·) (congrArg₂ (· + ·) (Finset.sum_congr rfl fun k _ => ?_)
    (Finset.sum_congr rfl fun k _ => ?_)) (Finset.sum_congr rfl fun k _ => ?_)) ?_
  · rw [blk0_read, blk3_read, V_main_arg0, V_w1, wblk1_apply, wcat_left]
  · rw [blk2_read, blk4_read, V_src, V_w2, wblk2_apply, wcat_left]
  · rw [blk1_read, blk5_read, V_main_arg1, V_w3, wblk3_apply, wcat_left]
  · rw [blk6_read, V_b, brow_left]

/-- What point t writes back to the second output is block t of `G8`. -/
theorem flushed8_eq (c : Dev nD) (t : Fin cfg0.N) :
    (dats m 0 c).flushed 8 t = ((cfg0.win 8).blk t).view.read (Elt Ideal) (G8 m c) := by
  rw [Value.flushed8]
  funext y
  obtain ⟨p, q, rfl⟩ : ∃ (p : Fin 2000) (q : Fin 128), y = ix2 p q := ⟨y 0, y 1, eq_ix2 y⟩
  show out0_8 (iblk m c 0 t) (iblk m c 1 t) (iblk m c 2 t) (iblk m c 3 t) (iblk m c 4 t) (iblk m c 5 t) (iblk m c 6 t) (ix2 p q)
    = G8 m c (((cfg0.win 8).blk t).view.emb (ix2 p q))
  rw [emb8 t p q]
  refine (out8_apply (iblk m c 0 t) (iblk m c 1 t) (iblk m c 2 t) (iblk m c 3 t) (iblk m c 4 t) (iblk m c 5 t) (iblk m c 6 t) p q).trans ?_
  show _ = headAt _ _ _ _ _ (rowOf t p) q
  unfold headAt
  refine congrArg₂ (· + ·) (congrArg₂ (· + ·) (congrArg₂ (· + ·) (Finset.sum_congr rfl fun k _ => ?_)
    (Finset.sum_congr rfl fun k _ => ?_)) (Finset.sum_congr rfl fun k _ => ?_)) ?_
  · rw [blk0_read, blk3_read, V_main_arg0, V_w1, wblk1_apply, wcat_right]
  · rw [blk2_read, blk4_read, V_src, V_w2, wblk2_apply, wcat_right]
  · rw [blk1_read, blk5_read, V_main_arg1, V_w3, wblk3_apply, wcat_right]
  · rw [blk6_read, V_b, brow_right]

/-! ## The blocks tile the rows -/

theorem mem_blk7 (t : Fin cfg0.N) (i : S500000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v0_0).slice (win0_7.rect t)).set ↔ _
  rw [View.set_slice_whole, Rect.mem_set_unit]
  exact Iff.rfl

theorem mem_blk8 (t : Fin cfg0.N) (i : S500000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v0_1).slice (win0_8.rect t)).set ↔ _
  rw [View.set_slice_whole, Rect.mem_set_unit]
  exact Iff.rfl

/-- Row r lies in the block of grid point r / 2000. -/
theorem cover7 (i : S500000x128.Idx) : ∃ t : Fin cfg0.N, (cfg0.win 7).flush t = true ∧ i ∈ ((cfg0.win 7).blk t).view.set := by
  have hi0 : (i 0).val < 500000 := (i 0).isLt
  have hi1 : (i 1).val < 128 := (i 1).isLt
  have hN : cfg0.N = 250 := N_0
  refine ⟨⟨(i 0).val / 2000, by omega⟩, flush0_7 _, ?_⟩
  obtain ⟨-, -, -, ⟨e0, e1⟩, -⟩ := idx_rows ⟨(i 0).val / 2000, by omega⟩
  rw [mem_blk7]
  intro a
  match a with
  | ⟨0, _⟩ =>
    show win0_7.index _ (0 : Fin 2) * 2000 ≤ (i 0).val ∧ (i 0).val < win0_7.index _ (0 : Fin 2) * 2000 + 2000
    rw [e0]; show (i 0).val / 2000 * 2000 ≤ (i 0).val ∧ (i 0).val < (i 0).val / 2000 * 2000 + 2000; omega
  | ⟨1, _⟩ =>
    show win0_7.index _ (1 : Fin 2) * 128 ≤ (i 1).val ∧ (i 1).val < win0_7.index _ (1 : Fin 2) * 128 + 128
    rw [e1]; omega

theorem cover8 (i : S500000x128.Idx) : ∃ t : Fin cfg0.N, (cfg0.win 8).flush t = true ∧ i ∈ ((cfg0.win 8).blk t).view.set := by
  have hi0 : (i 0).val < 500000 := (i 0).isLt
  have hi1 : (i 1).val < 128 := (i 1).isLt
  have hN : cfg0.N = 250 := N_0
  refine ⟨⟨(i 0).val / 2000, by omega⟩, flush0_8 _, ?_⟩
  obtain ⟨-, -, -, -, ⟨e0, e1⟩⟩ := idx_rows ⟨(i 0).val / 2000, by omega⟩
  rw [mem_blk8]
  intro a
  match a with
  | ⟨0, _⟩ =>
    show win0_8.index _ (0 : Fin 2) * 2000 ≤ (i 0).val ∧ (i 0).val < win0_8.index _ (0 : Fin 2) * 2000 + 2000
    rw [e0]; show (i 0).val / 2000 * 2000 ≤ (i 0).val ∧ (i 0).val < (i 0).val / 2000 * 2000 + 2000; omega
  | ⟨1, _⟩ =>
    show win0_8.index _ (1 : Fin 2) * 128 ≤ (i 1).val ∧ (i 1).val < win0_8.index _ (1 : Fin 2) * 128 + 128
    rw [e1]; omega

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

/-- The kernel's run with each output array named as its head function, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = G7 m c
      ∧ r.2.mem ((c : Thread nD τ).loc main_v0_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final7 m c), (h c).2.1.trans (final8 m c), (h c).2.2⟩)
    (Value.run_blocks m ρ)

end Cert.KernelIdeal.ArrayValue

end
-- ==== Proof.lean ====
/-
  The edge update of a message-passing layer: for every edge e, with cat[e] = [edge_feat[e] | node_feat[src[e]] | edge_query[e]]
  (three runs of 128 entries),
      new_edge_feat[e]  = cat[e] · W_feat  + b_feat,      new_edge_query[e] = cat[e] · W_query + b_query.

  The reference forms the 500000 × 384 matrix cat and contracts it with each 384 × 128 weight matrix. The kernel
  never forms cat: it lays the two weight matrices side by side, cuts the result into three 128 × 256 row blocks,
  and per block of 2000 edges adds the three products  ef · W1 + src · W2 + eq · W3  and the joined bias row; the left
  128 columns are the first result and the right 128 the second. Over the extended reals a sum over 384 positions
  is the sum of its three runs of 128 (associativity and commutativity of + only), a change of float format is
  the identity and a matrix product into a zero accumulator is the plain sum of products, so both programs compute
  the same function of the arrays, element by element, with no finiteness needed.

  The one place the two differ is the row read node_feat[src[e]]. Both count a negative index from the end. The
  reference then reads the row at the index clamped into the table; the kernel's take tests the wrapped index
  against [0, 49999] and puts a fill value in a row that fails the test. Under the precondition's index range
  -50000 ≤ src[e] < 50000 the wrapped index lies in [0, 49999], the test passes at every edge, and both read the
  same row by the same gather.

  The three frame claims are the imported generated ones. The idealized kernel is the kernel's own text read over
  the extended reals, with no operation rewritten, so the idealization claim is `True`.
-/
import proofs.«402795_j9509057593724_2_alg».proof.Defs
import proofs.«402795_j9509057593724_2_alg».proof.Proof.Gen.Kernel
import proofs.«402795_j9509057593724_2_alg».proof.Proof.Gen.Kernel.Skeleton
import proofs.«402795_j9509057593724_2_alg».proof.Proof.Gen.Kernel.Launch
import proofs.«402795_j9509057593724_2_alg».proof.Proof.Gen.Kernel.Points
import proofs.«402795_j9509057593724_2_alg».proof.Proof.Gen.Kernel.Frame
import proofs.«402795_j9509057593724_2_alg».proof.Proof.Gen.KernelIdeal
import proofs.«402795_j9509057593724_2_alg».proof.Proof.Gen.KernelIdeal.Skeleton
import proofs.«402795_j9509057593724_2_alg».proof.Proof.Gen.KernelIdeal.Launch
import proofs.«402795_j9509057593724_2_alg».proof.Proof.Gen.KernelIdeal.Points
import proofs.«402795_j9509057593724_2_alg».proof.Proof.Gen.KernelIdeal.Frame
import proofs.«402795_j9509057593724_2_alg».proof.Proof.Gen.ReferenceIdeal
import proofs.«402795_j9509057593724_2_alg».proof.Proof.Gen.KernelIdeal.Value
import proofs.«402795_j9509057593724_2_alg».proof.Proof.Gen.ReferenceIdeal.Run
import proofs.«402795_j9509057593724_2_alg».proof.Proof.Gen.ReferenceIdeal.Read
import proofs.«402795_j9509057593724_2_alg».proof.Proof.Gen.Pre_finite_inputs
import proofs.«402795_j9509057593724_2_alg».proof.Proof.PreRange
import proofs.«402795_j9509057593724_2_alg».proof.Proof.RefHead
import proofs.«402795_j9509057593724_2_alg».proof.Proof.KernelFinal
import Idealize.ShloMosaic.Adequacy
import Idealize.ShloMosaic.Init

noncomputable section

namespace Cert.Proof

open Idealize.ShloMosaic Idealize.ShloMosaic.TcCoe Idealize.SL.Sem

/-- The rows the kernel's take reads (where its test passes) are the rows the reference's gather reads: the same
    gather of the same table at the same wrapped indices. -/
theorem rows_agree (nf : FVec Ideal Cert.KernelIdeal.S50000x128 .f32) (s : IVec Cert.KernelIdeal.S500000 32) :
    Cert.KernelIdeal.HostValue.rows (F := Ideal) nf s = Cert.ReferenceIdeal.Read.val_main_v6 (F := Ideal) nf s := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each result at the head function of the argument arrays: the kernel by its blocks
    (the guarded take being the plain take under the index range), the reference by its run read index by index. -/
theorem algebraic : Cert.algebraic_KernelIdeal_ReferenceIdeal := by
  intro m ρ m' ρ' hpre hagree
  have hin : ∀ (c : Dev Cert.KernelIdeal.nD) (i : Cert.KernelIdeal.S500000.Idx),
      IntOp.cmpi .sge (m ((c.tc : Thread Cert.KernelIdeal.nD Cert.KernelIdeal.τ).loc Cert.KernelIdeal.main_arg3) i) 4294917296#32 = 1#1
      ∧ IntOp.cmpi .slt (m ((c.tc : Thread Cert.KernelIdeal.nD Cert.KernelIdeal.τ).loc Cert.KernelIdeal.main_arg3) i) 50000#32 = 1#1 :=
    fun c i => Cert.EdgeMlp.range_of_pre _ _ _ _ _ _ _ _ (hpre c) i
  refine ⟨fun c => Cert.KernelIdeal.ArrayValue.G7 m c, fun c => Cert.KernelIdeal.ArrayValue.G8 m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v11_eq, Cert.ReferenceIdeal.RefValue.v11_eq_head, h0, h1, h2, h3, h4, h5]
    show _ = Cert.KernelIdeal.ArrayValue.G7 m c
    unfold Cert.KernelIdeal.ArrayValue.G7
    rw [Cert.KernelIdeal.HostValue.taken_eq_rows _ _ (hin c), rows_agree]
  · obtain ⟨h0, h1, h2, h3, h4, h5, h6, h7⟩ := hagree c
    rw [Cert.ReferenceIdeal.Read.val_main_v15_eq, Cert.ReferenceIdeal.RefValue.v15_eq_head, h0, h1, h2, h3, h6, h7]
    show _ = Cert.KernelIdeal.ArrayValue.G8 m c
    unfold Cert.KernelIdeal.ArrayValue.G8
    rw [Cert.KernelIdeal.HostValue.taken_eq_rows _ _ (hin c), rows_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
